-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S5000x64 : Shape := ⟨2, ![5000, 64]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 70
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x1, .f32⟩
  | .hbm, ⟨49, _⟩ => ⟨S1x64, .f32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S100000x1, .f32⟩
  | .hbm, ⟨68, _⟩ => ⟨S1x32, .f32⟩
  | .hbm, ⟨69, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v31) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S_, .f32⟩
  | .hbm, ⟨82, _⟩ => ⟨S100000x32, .f32⟩
  | .hbm, ⟨83, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_cst : Ref sig .tc := ⟨.hbm, 81, rfl⟩
abbrev main_call1_v0 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Dense.lean ====
/-
  ONE DENSE LAYER OF THE GRAPH CONVOLUTION, AS ONE FUNCTION OF ITS FOUR ARRAYS.

  From an aggregated feature array a [N, K], a column of destination norms d [N, 1], a weight matrix w [K, B] and a
  bias row b [1, B] the layer's entry (r, q) is

      max( sum over k of (a (r, k) * d (r, 0)) * w (k, q)  +  b (0, q) , 0 ).

  Two programs compute it. The kernel works on blocks of n consecutive rows: the block's rows are scaled by the
  block's piece of the norm column, multiplied into the weights on the matrix unit from a zero accumulator, the bias row
  is added to every row and the result is rectified (blockLayer_apply: entry (p, q) of the block's result, from the
  block's own entries). The reference does the same on the whole arrays with the host's product, the column and the
  row spread over the array by broadcasts (hostLayer_eq). Both are sums of the same products in the same order of
  k, so no law of the extended reals beyond the definitions is used: at an entry the pointwise operations are *, + and
  max, and both matrix products are the plain sum over the contracted axis.
-/
import Idealize.ShloMosaic.PureOps.Ideal
import Idealize.ShloMosaic.PureOps.Ideal.Laws
import Idealize.ShloMosaic.Lib.ValueIdx
import Idealize.ShloMosaic.Lib.Pipeline.Value
import proofs.«175876_j79285096284697_1_alg».proof.Proof.LibBlocks

noncomputable section

open scoped BigOperators

namespace Cert.Dense

open Idealize.ShloMosaic Idealize.ShloMosaic.ValueIdx Cert.LibBlocks

/-- The layer, entry by entry: scale row r of the aggregate by the norm of node r, contract with the weights, add
    the bias, rectify. -/
def layer {N K B : Nat} (a : FVec Ideal ⟨2, ![N, K]⟩ .f32) (d : FVec Ideal ⟨2, ![N, 1]⟩ .f32)
    (w : FVec Ideal ⟨2, ![K, B]⟩ .f32) (b : FVec Ideal ⟨2, ![1, B]⟩ .f32) : FVec Ideal ⟨2, ![N, B]⟩ .f32 :=
  fun i => max ((∑ k : Fin K, (a (ix2 (i 0) k) * d (ix2 (i 0) (0 : Fin 1))) * w (ix2 k (i 1))) + b (ix2 (0 : Fin 1) (i 1)))
    (Ideal.ofBits .f32 0x00000000#32)

theorem layer_apply {N K B : Nat} (a : FVec Ideal ⟨2, ![N, K]⟩ .f32) (d : FVec Ideal ⟨2, ![N, 1]⟩ .f32)
    (w : FVec Ideal ⟨2, ![K, B]⟩ .f32) (b : FVec Ideal ⟨2, ![1, B]⟩ .f32) (r : Fin N) (q : Fin B) :
    layer a d w b (ix2 r q)
      = max ((∑ k : Fin K, (a (ix2 r k) * d (ix2 r (0 : Fin 1))) * w (ix2 k q)) + b (ix2 (0 : Fin 1) q))
          (Ideal.ofBits .f32 0x00000000#32) := rfl

/-- A column [n, 1] spread along the second axis reads its row's one entry. -/
theorem col_broadcastTo_apply {n K : Nat} (x : FVec Ideal ⟨2, ![n, 1]⟩ .f32)
    (hb : (⟨2, ![n, 1]⟩ : Shape).Broadcasts ⟨2, ![n, K]⟩) (p : Fin n) (k : Fin K) :
    broadcastTo ⟨2, ![n, K]⟩ x hb (ix2 p k) = x (ix2 p (0 : Fin 1)) :=
  broadcastTo_apply x hb (ix2 p k) (ix2 p (0 : Fin 1)) (fun a => by
    match a with
    | ⟨0, _⟩ =>
      show p.val = if n = 1 then 0 else p.val
      have := p.isLt
      split_ifs <;> omega
    | ⟨1, _⟩ => rfl)

/-- A row [1, B] spread along the first axis reads its column's one entry. -/
theorem row_broadcastTo_apply {n B : Nat} (x : FVec Ideal ⟨2, ![1, B]⟩ .f32)
    (hb : (⟨2, ![1, B]⟩ : Shape).Broadcasts ⟨2, ![n, B]⟩) (p : Fin n) (q : Fin B) :
    broadcastTo ⟨2, ![n, B]⟩ x hb (ix2 p q) = x (ix2 (0 : Fin 1) q) :=
  broadcastTo_apply x hb (ix2 p q) (ix2 (0 : Fin 1) q) (fun a => by
    match a with
    | ⟨0, _⟩ => rfl
    | ⟨1, _⟩ =>
      show q.val = if B = 1 then 0 else q.val
      have := q.isLt
      split_ifs <;> omega)

/-- The same two reads for the host's broadcast along both axes of the result. -/
theorem col_broadcastInDim_apply {N K : Nat} (x : FVec Ideal ⟨2, ![N, 1]⟩ .f32)
    (hb : (⟨2, ![N, 1]⟩ : Shape).BroadcastsInDim ⟨2, ![N, K]⟩ ![0, 1]) (r : Fin N) (k : Fin K) :
    broadcastInDim ⟨2, ![N, K]⟩ ![0, 1] hb x (ix2 r k) = x (ix2 r (0 : Fin 1)) :=
  broadcastInDim_apply ![0, 1] hb x (ix2 r k) (ix2 r (0 : Fin 1)) (fun a => by
    match a with
    | ⟨0, _⟩ =>
      show r.val = if N = 1 then 0 else r.val
      have := r.isLt
      split_ifs <;> omega
    | ⟨1, _⟩ => rfl)

theorem row_broadcastInDim_apply {N B : Nat} (x : FVec Ideal ⟨2, ![1, B]⟩ .f32)
    (hb : (⟨2, ![1, B]⟩ : Shape).BroadcastsInDim ⟨2, ![N, B]⟩ ![0, 1]) (r : Fin N) (q : Fin B) :
    broadcastInDim ⟨2, ![N, B]⟩ ![0, 1] hb x (ix2 r q) = x (ix2 (0 : Fin 1) q) :=
  broadcastInDim_apply ![0, 1] hb x (ix2 r q) (ix2 (0 : Fin 1) q) (fun a => by
    match a with
    | ⟨0, _⟩ => rfl
    | ⟨1, _⟩ =>
      show q.val = if B = 1 then 0 else q.val
      have := q.isLt
      split_ifs <;> omega)

/-- THE KERNEL'S BLOCK: entry (p, q) of max((x0 * column x1) times x2 from zero + row x3, 0), from the block's own
    entries. -/
theorem blockLayer_apply {n K B : Nat}
    (dk : DotDims ⟨2, ![n, K]⟩ ⟨2, ![K, B]⟩ ⟨2, ![n, B]⟩) (hdk : dk = DotDims.plain n K B)
    (hc0 : (⟨2, ![n, K]⟩ : Shape).ShapeCasts ⟨2, ![n, K]⟩) (hc1 : (⟨2, ![n, 1]⟩ : Shape).ShapeCasts ⟨2, ![n, 1]⟩)
    (hb1 : (⟨2, ![n, 1]⟩ : Shape).Broadcasts ⟨2, ![n, K]⟩)
    (hc3 : (⟨2, ![1, B]⟩ : Shape).ShapeCasts ⟨2, ![1, B]⟩) (hb3 : (⟨2, ![1, B]⟩ : Shape).Broadcasts ⟨2, ![n, B]⟩)
    (x0 : FVec Ideal ⟨2, ![n, K]⟩ .f32) (x1 : FVec Ideal ⟨2, ![n, 1]⟩ .f32)
    (x2 : FVec Ideal ⟨2, ![K, B]⟩ .f32) (x3 : FVec Ideal ⟨2, ![1, B]⟩ .f32) (p : Fin n) (q : Fin B) :
    maximumf (addf (matmul dk none (mulf (shapeCast ⟨2, ![n, K]⟩ x0 hc0) (broadcastTo ⟨2, ![n, K]⟩ (shapeCast ⟨2, ![n, 1]⟩ x1 hc1) hb1))
          x2 (constant ⟨2, ![n, B]⟩ .f32 0x00000000#32))
        (broadcastTo ⟨2, ![n, B]⟩ (shapeCast ⟨2, ![1, B]⟩ x3 hc3) hb3))
      (broadcast ⟨2, ![n, B]⟩ (Scalar.ofBits (F := Ideal) .f32 0x00000000#32)) (ix2 p q)
      = max ((∑ k : Fin K, (x0 (ix2 p k) * x1 (ix2 p (0 : Fin 1))) * x2 (ix2 k q)) + x3 (ix2 (0 : Fin 1) q))
          (Ideal.ofBits .f32 0x00000000#32) := by
  rw [maximumf_apply, addf_apply, shapeCast_self, shapeCast_self, shapeCast_self, row_broadcastTo_apply]
  show max (FloatOps.matmul dk none _ _ _ (ix2 p q) + _) _ = _
  rw [matmul_plain_apply dk hdk]
  refine congrArg (fun s => max (s + x3 (ix2 (0 : Fin 1) q)) _) (Finset.sum_congr rfl fun k _ => ?_)
  rw [mulf_apply, col_broadcastTo_apply]

/-- THE REFERENCE'S LAYER on the whole arrays is the layer. -/
theorem hostLayer_eq {N K B : Nat}
    (dr : DotDims ⟨2, ![N, K]⟩ ⟨2, ![K, B]⟩ ⟨2, ![N, B]⟩) (hdr : dr = DotDims.plain N K B)
    (hbn : (⟨2, ![N, 1]⟩ : Shape).BroadcastsInDim ⟨2, ![N, K]⟩ ![0, 1])
    (hbb : (⟨2, ![1, B]⟩ : Shape).BroadcastsInDim ⟨2, ![N, B]⟩ ![0, 1])
    (hz : (⟨0, ![]⟩ : Shape).BroadcastsInDim ⟨2, ![N, B]⟩ ![])
    (a : FVec Ideal ⟨2, ![N, K]⟩ .f32) (d : FVec Ideal ⟨2, ![N, 1]⟩ .f32)
    (w : FVec Ideal ⟨2, ![K, B]⟩ .f32) (b : FVec Ideal ⟨2, ![1, B]⟩ .f32) :
    maximumf (addf (Host.dotGeneral dr none (mulf a (broadcastInDim ⟨2, ![N, K]⟩ ![0, 1] hbn d)) w)
        (broadcastInDim ⟨2, ![N, B]⟩ ![0, 1] hbb b))
      (broadcastInDim ⟨2, ![N, B]⟩ ![] hz (constant (F := Ideal) ⟨0, ![]⟩ .f32 0x00000000#32))
      = layer a d w b := by
  funext i
  obtain ⟨r, q, rfl⟩ : ∃ (r : Fin N) (q : Fin B), i = ix2 r q := ⟨i 0, i 1, eq_ix2 i⟩
  rw [layer_apply, maximumf_apply, addf_apply, row_broadcastInDim_apply,
    broadcastInDim_apply ![] hz (constant (F := Ideal) ⟨0, ![]⟩ .f32 0x00000000#32) (ix2 r q) ix0 (fun a => a.elim0)]
  show max (FloatOps.dotGeneral dr none .single _ w (ix2 r q) + _) _ = _
  rw [dotGeneral_plain_apply dr hdr]
  refine congrArg (fun s => max (s + b (ix2 (0 : Fin 1) q)) _) (Finset.sum_congr rfl fun k _ => ?_)
  rw [mulf_apply, col_broadcastInDim_apply]

end Cert.Dense

end
-- ==== Proof.Region0.lean ====
/-
  WHAT THE REGION OF THE first dense layer LEAVES IN ITS RESULT ARRAY, whatever the buffers hold when it is entered.

  The region works its [100000, 64] aggregate in 20 blocks of 5000 consecutive rows: at grid point t it is handed rows
  5000 t … 5000 t + 4999 of the aggregate and of the norm column, the whole weight matrix and the whole bias row, and it
  stores the dense layer of that block (Dense.lean) into rows 5000 t … 5000 t + 4999 of the result. Entry (p, q) of the
  block's result depends only on row p of the block, which is row 5000 t + p of the arrays, so what point t writes back
  is block t of ONE function of the whole arrays, the layer; the 20 blocks tile the result (row r lies in block r / 5000),
  so after the region the result array is the layer of the region's four arrays.

  Stated at any contents V of the buffers at the region's entry: the run instantiates V at this region's entry.
-/
import proofs.«175876_j79285096284697_1_alg».proof.Proof.Gen.KernelIdeal.Frame
import proofs.«175876_j79285096284697_1_alg».proof.Proof.Dense
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibBlocks (off2_zero)

variable (V : (c : Dev nD) → (b : Ref sig .tc) → Buf (Elt Ideal) ((c : Thread nD τ).loc b))

/-! ## The first dense layer (its region's arrays: aggregate main_v31, norm column main_v32, weights main_arg2, bias row main_v33; result main_v34) -/

section Region0

/-- The body's stored value at entry (p, q) of a block, from the block's own entries. -/
theorem pay0_apply (x0 : Vec Ideal S5000x64 .f32) (x1 : Vec Ideal S5000x1 .f32) (x2 : Vec Ideal S64x64 .f32) (x3 : Vec Ideal S1x64 .f32)
    (p : Fin 5000) (q : Fin 64) :
    k0_pay1 x0 x1 x2 x3 (ix2 p q)
      = max ((∑ k : Fin 64, (x0 (ix2 p k) * x1 (ix2 p (0 : Fin 1))) * x2 (ix2 k q)) + x3 (ix2 (0 : Fin 1) q))
          (Ideal.ofBits .f32 0x00000000#32) :=
  Cert.Dense.blockLayer_apply dot_S5000x64_S64x64_S5000x64_1_0_0_1_n_n rfl shapeCasts_S5000x64_S5000x64 shapeCasts_S5000x1_S5000x1
    broadcasts_S5000x1_S5000x64 shapeCasts_S1x64_S1x64 broadcasts_S1x64_S5000x64 x0 x1 x2 x3 p q

/-- The printed index maps over the grid: the row-blocked windows (aggregate, norm column, result) are at block row t
    and block column 0 at point t; the weights and the bias row are always at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 20 :=
  (by decide +kernel : ∀ t : Fin grid0.N, _)

/-- Every block row of the result is some point's. -/
theorem idx_onto0 : ∀ (b : Fin 20), ∃ t : Fin cfg0.N, win0_4.index t (0 : Fin 2) = b.val :=
  (by decide +kernel : ∀ (b : Fin 20), ∃ t : Fin grid0.N, win0_4.index t (0 : Fin 2) = b.val)

/-- The region's four input arrays and its blocks at a point, at their literal types. -/
abbrev agg0 (c : Dev nD) : Vec Ideal S100000x64 .f32 := V c main_v31
abbrev ncol0 (c : Dev nD) : Vec Ideal S100000x1 .f32 := V c main_v32
abbrev wts0 (c : Dev nD) : Vec Ideal S64x64 .f32 := V c main_arg2
abbrev brow0 (c : Dev nD) : Vec Ideal S1x64 .f32 := V c main_v33
abbrev xb0_0 (c : Dev nD) (t : Fin cfg0.N) : Vec Ideal S5000x64 .f32 := iblk0 V c 0 t
abbrev xb0_1 (c : Dev nD) (t : Fin cfg0.N) : Vec Ideal S5000x1 .f32 := iblk0 V c 1 t
abbrev xb0_2 (c : Dev nD) (t : Fin cfg0.N) : Vec Ideal S64x64 .f32 := iblk0 V c 2 t
abbrev xb0_3 (c : Dev nD) (t : Fin cfg0.N) : Vec Ideal S1x64 .f32 := iblk0 V c 3 t

/-- Row p of block t is array row 5000 t + p. -/
def row0 (t : Fin cfg0.N) (p : Fin 5000) : Fin 100000 := ⟨t.val * 5000 + p.val, by
  have := (idx_facts0 t).2.2.2.2.2.2.2.2.2.2; have := p.isLt; omega⟩

theorem read0_0 (c : Dev nD) (t : Fin cfg0.N) (p : Fin 5000) (k : Fin 64) :
    xb0_0 V c t (ix2 p k) = agg0 V c (ix2 (row0 t p) k) := by
  obtain ⟨e0, e1, -⟩ := idx_facts0 t
  show agg0 V c (((cfg0.win 0).blk t).view.emb (ix2 p k)) = _
  refine congrArg (agg0 V c) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem read0_1 (c : Dev nD) (t : Fin cfg0.N) (p : Fin 5000) :
    xb0_1 V c t (ix2 p (0 : Fin 1)) = ncol0 V c (ix2 (row0 t p) (0 : Fin 1)) := by
  obtain ⟨-, -, e0, e1, -⟩ := idx_facts0 t
  show ncol0 V c (((cfg0.win 1).blk t).view.emb (ix2 p (0 : Fin 1))) = _
  refine congrArg (ncol0 V c) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem read0_2 (c : Dev nD) (t : Fin cfg0.N) (k : Fin 64) (q : Fin 64) :
    xb0_2 V c t (ix2 k q) = wts0 V c (ix2 k q) := by
  obtain ⟨-, -, -, -, e0, e1, -⟩ := idx_facts0 t
  show wts0 V c (((cfg0.win 2).blk t).view.emb (ix2 k q)) = _
  refine congrArg (wts0 V c) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem read0_3 (c : Dev nD) (t : Fin cfg0.N) (q : Fin 64) :
    xb0_3 V c t (ix2 (0 : Fin 1) q) = brow0 V c (ix2 (0 : Fin 1) q) := by
  obtain ⟨-, -, -, -, -, -, e0, e1, -⟩ := idx_facts0 t
  show brow0 V c (((cfg0.win 3).blk t).view.emb (ix2 (0 : Fin 1) q)) = _
  refine congrArg (brow0 V c) (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- WHAT POINT t WRITES BACK is block t of the layer of the region's four arrays. -/
theorem flushed0_eq (c : Dev nD) (t : Fin cfg0.N) :
    (dat0 V c).flushed 4 t
      = ((cfg0.win 4).blk t).view.read (Elt Ideal) (Cert.Dense.layer (agg0 V c) (ncol0 V c) (wts0 V c) (brow0 V c)) := by
  show (cfg0.win 4).cut (grid0.coords t) ((dat0 V c).after 4 t) = _
  rw [after0_4]
  unfold out0_4
  rw [View.canon_unit_zero off2_zero]
  simp only [View.ld_unit_zero (S := S5000x64) off2_zero, View.ld_unit_zero (S := S5000x1) off2_zero,
    View.ld_unit_zero (S := S64x64) off2_zero, View.ld_unit_zero (S := S1x64) off2_zero]
  funext j
  obtain ⟨p, q, rfl⟩ : ∃ (p : Fin 5000) (q : Fin 64), j = ix2 p q := ⟨j 0, j 1, eq_ix2 j⟩
  obtain ⟨-, -, -, -, -, -, -, -, e0, e1, -⟩ := idx_facts0 t
  have hemb : ((cfg0.win 4).blk t).view.emb (ix2 p q) = ix2 (row0 t p) q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  show k0_pay1 (xb0_0 V c t) (xb0_1 V c t) (xb0_2 V c t) (xb0_3 V c t) (ix2 p q)
    = Cert.Dense.layer (agg0 V c) (ncol0 V c) (wts0 V c) (brow0 V c) (((cfg0.win 4).blk t).view.emb (ix2 p q))
  rw [hemb, Cert.Dense.layer_apply]
  refine (pay0_apply (xb0_0 V c t) (xb0_1 V c t) (xb0_2 V c t) (xb0_3 V c t) p q).trans ?_
  rw [read0_1 V c t p, read0_3 V c t q]
  refine congrArg (fun s => max (s + brow0 V c (ix2 (0 : Fin 1) q)) (Ideal.ofBits .f32 0x00000000#32)) (Finset.sum_congr rfl fun k _ => ?_)
  rw [read0_0 V c t p k, read0_2 V c t k q]

/-- An index of the result array is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v34).slice (win0_4.rect t)).set ↔ _
  rw [View.set_slice_whole, Rect.mem_set_unit]
  exact Iff.rfl

/-- Every index of the result array is in some point's block: row r is in block r / 5000. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 5000, by omega⟩
  have q0 : win0_4.index t (0 : Fin 2) = (i 0).val / 5000 := ht
  obtain ⟨-, -, -, -, -, -, -, -, -, e1, -⟩ := idx_facts0 t
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the region: the layer of the region's four arrays as it found them. -/
theorem final0 (c : Dev nD) :
    (dat0 V c).arrAt 4 cfg0.N = Cert.Dense.layer (agg0 V c) (ncol0 V c) (wts0 V c) (brow0 V c) :=
  (dat0 V c).arrAt_eq_of_cover 4 _ (fun t _ => flushed0_eq V c t) (cover0)

end Region0

end Cert.KernelIdeal.Layers

end
-- ==== Proof.Region1.lean ====
/-
  WHAT THE REGION OF THE second dense layer LEAVES IN ITS RESULT ARRAY, whatever the buffers hold when it is entered.

  The region works its [100000, 64] aggregate in 20 blocks of 5000 consecutive rows: at grid point t it is handed rows
  5000 t … 5000 t + 4999 of the aggregate and of the norm column, the whole weight matrix and the whole bias row, and it
  stores the dense layer of that block (Dense.lean) into rows 5000 t … 5000 t + 4999 of the result. Entry (p, q) of the
  block's result depends only on row p of the block, which is row 5000 t + p of the arrays, so what point t writes back
  is block t of ONE function of the whole arrays, the layer; the 20 blocks tile the result (row r lies in block r / 5000),
  so after the region the result array is the layer of the region's four arrays.

  Stated at any contents V of the buffers at the region's entry: the run instantiates V at this region's entry.
-/
import proofs.«175876_j79285096284697_1_alg».proof.Proof.Gen.KernelIdeal.Frame
import proofs.«175876_j79285096284697_1_alg».proof.Proof.Dense
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibBlocks (off2_zero)

variable (V : (c : Dev nD) → (b : Ref sig .tc) → Buf (Elt Ideal) ((c : Thread nD τ).loc b))

/-! ## The second dense layer (its region's arrays: aggregate main_v47, norm column main_v48, weights main_arg4, bias row main_v49; result main_v50) -/

section Region1

/-- The body's stored value at entry (p, q) of a block, from the block's own entries. -/
theorem pay1_apply (x0 : Vec Ideal S5000x64 .f32) (x1 : Vec Ideal S5000x1 .f32) (x2 : Vec Ideal S64x32 .f32) (x3 : Vec Ideal S1x32 .f32)
    (p : Fin 5000) (q : Fin 32) :
    k1_pay1 x0 x1 x2 x3 (ix2 p q)
      = max ((∑ k : Fin 64, (x0 (ix2 p k) * x1 (ix2 p (0 : Fin 1))) * x2 (ix2 k q)) + x3 (ix2 (0 : Fin 1) q))
          (Ideal.ofBits .f32 0x00000000#32) :=
  Cert.Dense.blockLayer_apply dot_S5000x64_S64x32_S5000x32_1_0_0_1_n_n rfl shapeCasts_S5000x64_S5000x64 shapeCasts_S5000x1_S5000x1
    broadcasts_S5000x1_S5000x64 shapeCasts_S1x32_S1x32 broadcasts_S1x32_S5000x32 x0 x1 x2 x3 p q

/-- The printed index maps over the grid: the row-blocked windows (aggregate, norm column, result) are at block row t
    and block column 0 at point t; the weights and the bias row are always at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- Every block row of the result is some point's. -/
theorem idx_onto1 : ∀ (b : Fin 20), ∃ t : Fin cfg1.N, win1_4.index t (0 : Fin 2) = b.val :=
  (by decide +kernel : ∀ (b : Fin 20), ∃ t : Fin grid1.N, win1_4.index t (0 : Fin 2) = b.val)

/-- The region's four input arrays and its blocks at a point, at their literal types. -/
abbrev agg1 (c : Dev nD) : Vec Ideal S100000x64 .f32 := V c main_v47
abbrev ncol1 (c : Dev nD) : Vec Ideal S100000x1 .f32 := V c main_v48
abbrev wts1 (c : Dev nD) : Vec Ideal S64x32 .f32 := V c main_arg4
abbrev brow1 (c : Dev nD) : Vec Ideal S1x32 .f32 := V c main_v49
abbrev xb1_0 (c : Dev nD) (t : Fin cfg1.N) : Vec Ideal S5000x64 .f32 := iblk1 V c 0 t
abbrev xb1_1 (c : Dev nD) (t : Fin cfg1.N) : Vec Ideal S5000x1 .f32 := iblk1 V c 1 t
abbrev xb1_2 (c : Dev nD) (t : Fin cfg1.N) : Vec Ideal S64x32 .f32 := iblk1 V c 2 t
abbrev xb1_3 (c : Dev nD) (t : Fin cfg1.N) : Vec Ideal S1x32 .f32 := iblk1 V c 3 t

/-- Row p of block t is array row 5000 t + p. -/
def row1 (t : Fin cfg1.N) (p : Fin 5000) : Fin 100000 := ⟨t.val * 5000 + p.val, by
  have := (idx_facts1 t).2.2.2.2.2.2.2.2.2.2; have := p.isLt; omega⟩

theorem read1_0 (c : Dev nD) (t : Fin cfg1.N) (p : Fin 5000) (k : Fin 64) :
    xb1_0 V c t (ix2 p k) = agg1 V c (ix2 (row1 t p) k) := by
  obtain ⟨e0, e1, -⟩ := idx_facts1 t
  show agg1 V c (((cfg1.win 0).blk t).view.emb (ix2 p k)) = _
  refine congrArg (agg1 V c) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem read1_1 (c : Dev nD) (t : Fin cfg1.N) (p : Fin 5000) :
    xb1_1 V c t (ix2 p (0 : Fin 1)) = ncol1 V c (ix2 (row1 t p) (0 : Fin 1)) := by
  obtain ⟨-, -, e0, e1, -⟩ := idx_facts1 t
  show ncol1 V c (((cfg1.win 1).blk t).view.emb (ix2 p (0 : Fin 1))) = _
  refine congrArg (ncol1 V c) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem read1_2 (c : Dev nD) (t : Fin cfg1.N) (k : Fin 64) (q : Fin 32) :
    xb1_2 V c t (ix2 k q) = wts1 V c (ix2 k q) := by
  obtain ⟨-, -, -, -, e0, e1, -⟩ := idx_facts1 t
  show wts1 V c (((cfg1.win 2).blk t).view.emb (ix2 k q)) = _
  refine congrArg (wts1 V c) (funext fun a => Fin.ext ?_)
  match a with
  | ⟨0, _⟩ => show win1_2.index t (0 : Fin 2) * 64 + 1 * k.val = k.val; omega
  | ⟨1, _⟩ => show win1_2.index t (1 : Fin 2) * 32 + 1 * q.val = q.val; omega

theorem read1_3 (c : Dev nD) (t : Fin cfg1.N) (q : Fin 32) :
    xb1_3 V c t (ix2 (0 : Fin 1) q) = brow1 V c (ix2 (0 : Fin 1) q) := by
  obtain ⟨-, -, -, -, -, -, e0, e1, -⟩ := idx_facts1 t
  show brow1 V c (((cfg1.win 3).blk t).view.emb (ix2 (0 : Fin 1) q)) = _
  refine congrArg (brow1 V c) (funext fun a => Fin.ext ?_)
  match a with
  | ⟨0, _⟩ => show win1_3.index t (0 : Fin 2) * 1 + 1 * 0 = 0; omega
  | ⟨1, _⟩ => show win1_3.index t (1 : Fin 2) * 32 + 1 * q.val = q.val; omega

/-- WHAT POINT t WRITES BACK is block t of the layer of the region's four arrays. -/
theorem flushed1_eq (c : Dev nD) (t : Fin cfg1.N) :
    (dat1 V c).flushed 4 t
      = ((cfg1.win 4).blk t).view.read (Elt Ideal) (Cert.Dense.layer (agg1 V c) (ncol1 V c) (wts1 V c) (brow1 V c)) := by
  show (cfg1.win 4).cut (grid1.coords t) ((dat1 V c).after 4 t) = _
  rw [after1_4]
  unfold out1_4
  rw [View.canon_unit_zero off2_zero]
  simp only [View.ld_unit_zero (S := S5000x64) off2_zero, View.ld_unit_zero (S := S5000x1) off2_zero,
    View.ld_unit_zero (S := S64x32) off2_zero, View.ld_unit_zero (S := S1x32) off2_zero]
  funext j
  obtain ⟨p, q, rfl⟩ : ∃ (p : Fin 5000) (q : Fin 32), j = ix2 p q := ⟨j 0, j 1, eq_ix2 j⟩
  obtain ⟨-, -, -, -, -, -, -, -, e0, e1, -⟩ := idx_facts1 t
  have hemb : ((cfg1.win 4).blk t).view.emb (ix2 p q) = ix2 (row1 t p) q := by
    funext a; apply Fin.ext
    match a with
    | ⟨0, _⟩ => show win1_4.index t (0 : Fin 2) * 5000 + 1 * p.val = t.val * 5000 + p.val; omega
    | ⟨1, _⟩ => show win1_4.index t (1 : Fin 2) * 32 + 1 * q.val = q.val; omega
  show k1_pay1 (xb1_0 V c t) (xb1_1 V c t) (xb1_2 V c t) (xb1_3 V c t) (ix2 p q)
    = Cert.Dense.layer (agg1 V c) (ncol1 V c) (wts1 V c) (brow1 V c) (((cfg1.win 4).blk t).view.emb (ix2 p q))
  rw [hemb, Cert.Dense.layer_apply]
  refine (pay1_apply (xb1_0 V c t) (xb1_1 V c t) (xb1_2 V c t) (xb1_3 V c t) p q).trans ?_
  rw [read1_1 V c t p, read1_3 V c t q]
  refine congrArg (fun s => max (s + brow1 V c (ix2 (0 : Fin 1) q)) (Ideal.ofBits .f32 0x00000000#32)) (Finset.sum_congr rfl fun k _ => ?_)
  rw [read1_0 V c t p k, read1_2 V c t k q]

/-- An index of the result array is in point t's block iff each coordinate is in the block's range on its axis. -/
theorem mem_blk1 (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v50).slice (win1_4.rect t)).set ↔ _
  rw [View.set_slice_whole, Rect.mem_set_unit]
  exact Iff.rfl

/-- Every index of the result array is in some point's block: row r is in block r / 5000. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := idx_onto1 ⟨(i 0).val / 5000, by omega⟩
  have q0 : win1_4.index t (0 : Fin 2) = (i 0).val / 5000 := ht
  obtain ⟨-, -, -, -, -, -, -, -, -, e1, -⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- THE RESULT ARRAY after the region: the layer of the region's four arrays as it found them. -/
theorem final1 (c : Dev nD) :
    (dat1 V c).arrAt 4 cfg1.N = Cert.Dense.layer (agg1 V c) (ncol1 V c) (wts1 V c) (brow1 V c) :=
  (dat1 V c).arrAt_eq_of_cover 4 _ (fun t _ => flushed1_eq V c t) (cover1)

end Region1

end Cert.KernelIdeal.Layers

end
-- ==== Proof.Fold.lean ====
/-
  THE KERNEL PROGRAM'S RESULT AS ONE TERM OF THE LAUNCH ARRAYS.

  @main is four segments. The first stretch of host operations splits the edge list into its two rows (source and
  destination node of every edge), counts each node's out- and in-degree by a scatter-add of ones, takes
  max(degree, 1) to the power -1/2 as the two norms, scales the features' rows by the source norm, gathers the scaled
  rows along the edges' sources and adds them up at the edges' destinations: the aggregate. It also writes the
  destination norm as a column and the first bias as a row. The first region then leaves the first dense layer of
  those arrays (Region0.lean) in its result array. The second stretch aggregates that result the same way and writes the
  same column and the second bias as a row; the second region leaves the second dense layer of those (Region1.lean),
  which is the program's result.

  So the result is  layer (aggregate (layer (aggregate x))) , each aggregate with the same two norms and the same edge
  rows, read off the fold of buffer contents boundary by boundary: a region's arrays other than its result, and every
  buffer no operation of a stretch writes, keep their contents across it.
-/
import proofs.«175876_j79285096284697_1_alg».proof.Proof.Gen.KernelIdeal.Frame
import proofs.«175876_j79285096284697_1_alg».proof.Proof.Region0
import proofs.«175876_j79285096284697_1_alg».proof.Proof.Region1
import Idealize.ShloMosaic.Lib.StableHlo.Run

set_option maxRecDepth 16384

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo

/-! ## The host stretches' operations as functions -/

/-- Row 0 of the edge list: every edge's source node. -/
def srcRow (ei : Vec Ideal S2x1000000 .i32) : Vec Ideal S1000000 .i32 :=
  shapeCast S1000000 (extractStridedSlice S1x1000000 ![0, 0] ei slices_S2x1000000_S1x1000000_0_0) shapeCasts_S1x1000000_S1000000

/-- Row 1 of the edge list: every edge's destination node. -/
def dstRow (ei : Vec Ideal S2x1000000 .i32) : Vec Ideal S1000000 .i32 :=
  shapeCast S1000000 (extractStridedSlice S1x1000000 ![1, 0] ei slices_S2x1000000_S1x1000000_1_0) shapeCasts_S1x1000000_S1000000

/-- A degree norm: how often each node occurs among the given ends of the edges (ones scatter-added into zeros),
    clamped below at 1, to the power -1/2. -/
def degNorm (idx : Vec Ideal S1000000 .i32) : FVec Ideal S100000 .f32 :=
  Host.powf
    (maximumf
      (Host.scatterAdd scatter_S100000_S1000000x1_S1000000_n_0_0_1
        (broadcastInDim S100000 ![] bcast_S_S100000 (constant S_ .f32 0x00000000#32))
        (broadcastInDim S1000000x1 ![0] bcast_S1000000_S1000000x1_0 idx)
        (broadcastInDim S1000000 ![] bcast_S_S1000000 (constant S_ .f32 0x3F800000#32)))
      (broadcastInDim S100000 ![] bcast_S_S100000 (constant S_ .f32 0x3F800000#32)))
    (broadcastInDim S100000 ![] bcast_S_S100000 (constant S_ .f32 0xBF000000#32))

/-- The aggregation of a feature array along the edges: rows scaled by the source norm, gathered at the edges'
    sources (a negative index wrapped once by the number of nodes), added up at the edges' destinations. -/
def aggregate (h : FVec Ideal S100000x64 .f32) (ns : FVec Ideal S100000 .f32) (src dst : Vec Ideal S1000000 .i32) :
    FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164
      (mulf h (broadcastInDim S100000x64 ![0, 1] bcast_S100000x1_S100000x64_0_1 (broadcastInDim S100000x1 ![0] bcast_S100000_S100000x1_0 ns)))
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

variable (m : (ℓ : Loc nD τ sig) → Buf (Elt Ideal) ℓ) (ρ : Dev nD → PrngReg)

/-- The launch arrays at their literal types. -/
abbrev xs (c : Dev nD) : FVec Ideal S100000x64 .f32 := m ((c : Thread nD τ).loc main_arg0)
abbrev ei (c : Dev nD) : Vec Ideal S2x1000000 .i32 := m ((c : Thread nD τ).loc main_arg1)
abbrev w1 (c : Dev nD) : FVec Ideal S64x64 .f32 := m ((c : Thread nD τ).loc main_arg2)
abbrev b1 (c : Dev nD) : FVec Ideal S64 .f32 := m ((c : Thread nD τ).loc main_arg3)
abbrev w2 (c : Dev nD) : FVec Ideal S64x32 .f32 := m ((c : Thread nD τ).loc main_arg4)
abbrev b2 (c : Dev nD) : FVec Ideal S32 .f32 := m ((c : Thread nD τ).loc main_arg5)

/-- The two norms and the two edge rows of the launch's edge list. -/
abbrev ns (c : Dev nD) : FVec Ideal S100000 .f32 := degNorm (srcRow (ei m c))
abbrev nd (c : Dev nD) : FVec Ideal S100000 .f32 := degNorm (dstRow (ei m c))

/-! ## After the first stretch (the first region's entry) -/

theorem W1_v1 (c : Dev nD) : (W1 m ρ c (Proc.devRef .tc main_v1) : Vec Ideal S1000000 .i32) = srcRow (ei m c) := by
  show StableHlo.after hostOps0 (W0 m ρ c) (Proc.devRef .tc main_v1) = _
  after_results_simp <;> rfl

theorem W1_v3 (c : Dev nD) : (W1 m ρ c (Proc.devRef .tc main_v3) : Vec Ideal S1000000 .i32) = dstRow (ei m c) := by
  show StableHlo.after hostOps0 (W0 m ρ c) (Proc.devRef .tc main_v3) = _
  after_results_simp <;> rfl

theorem W1_v14 (c : Dev nD) : (W1 m ρ c (Proc.devRef .tc main_v14) : FVec Ideal S100000 .f32) = ns m c := by
  show StableHlo.after hostOps0 (W0 m ρ c) (Proc.devRef .tc main_v14) = _
  after_results_simp <;> rfl

theorem W1_v18 (c : Dev nD) : (W1 m ρ c (Proc.devRef .tc main_v18) : FVec Ideal S100000 .f32) = nd m c := by
  show StableHlo.after hostOps0 (W0 m ρ c) (Proc.devRef .tc main_v18) = _
  after_results_simp <;> rfl

theorem W1_v31 (c : Dev nD) :
    (W1 m ρ c (Proc.devRef .tc main_v31) : FVec Ideal S100000x64 .f32)
      = aggregate (xs m c) (ns m c) (srcRow (ei m c)) (dstRow (ei m c)) := by
  show StableHlo.after hostOps0 (W0 m ρ c) (Proc.devRef .tc main_v31) = _
  after_results_simp <;> rfl

theorem W1_v32 (c : Dev nD) :
    (W1 m ρ c (Proc.devRef .tc main_v32) : FVec Ideal S100000x1 .f32) = shapeCast S100000x1 (nd m c) shapeCasts_S100000_S100000x1 := by
  show StableHlo.after hostOps0 (W0 m ρ c) (Proc.devRef .tc main_v32) = _
  after_results_simp <;> rfl

theorem W1_v33 (c : Dev nD) :
    (W1 m ρ c (Proc.devRef .tc main_v33) : FVec Ideal S1x64 .f32) = shapeCast S1x64 (b1 m c) shapeCasts_S64_S1x64 := by
  show StableHlo.after hostOps0 (W0 m ρ c) (Proc.devRef .tc main_v33) = _
  after_results_simp <;> rfl

theorem W1_arg2 (c : Dev nD) : (W1 m ρ c (Proc.devRef .tc main_arg2) : FVec Ideal S64x64 .f32) = w1 m c := by
  show StableHlo.after hostOps0 (W0 m ρ c) (Proc.devRef .tc main_arg2) = _
  after_results_simp <;> rfl

theorem W1_arg4 (c : Dev nD) : (W1 m ρ c (Proc.devRef .tc main_arg4) : FVec Ideal S64x32 .f32) = w2 m c := by
  show StableHlo.after hostOps0 (W0 m ρ c) (Proc.devRef .tc main_arg4) = _
  after_results_simp <;> rfl

theorem W1_arg5 (c : Dev nD) : (W1 m ρ c (Proc.devRef .tc main_arg5) : FVec Ideal S32 .f32) = b2 m c := by
  show StableHlo.after hostOps0 (W0 m ρ c) (Proc.devRef .tc main_arg5) = _
  after_results_simp <;> rfl

/-- The first layer's output: what the first region leaves in its result array. -/
abbrev hidden (c : Dev nD) : FVec Ideal S100000x64 .f32 :=
  Cert.Dense.layer (aggregate (xs m c) (ns m c) (srcRow (ei m c)) (dstRow (ei m c)))
    (shapeCast S100000x1 (nd m c) shapeCasts_S100000_S100000x1) (w1 m c) (shapeCast S1x64 (b1 m c) shapeCasts_S64_S1x64)

/-! ## After the first region -/

theorem W2_v34 (c : Dev nD) : (W2 m ρ c (Proc.devRef .tc main_v34) : FVec Ideal S100000x64 .f32) = hidden m c := by
  refine (W2_arr m ρ c 4).trans ?_
  refine (final0 (V1 m ρ) c).trans ?_
  show Cert.Dense.layer (W1 m ρ c (Proc.devRef .tc main_v31) : FVec Ideal S100000x64 .f32) (W1 m ρ c (Proc.devRef .tc main_v32) : FVec Ideal S100000x1 .f32)
    (W1 m ρ c (Proc.devRef .tc main_arg2) : FVec Ideal S64x64 .f32) (W1 m ρ c (Proc.devRef .tc main_v33) : FVec Ideal S1x64 .f32) = _
  rw [W1_v31, W1_v32, W1_arg2, W1_v33]

theorem W2_v1 (c : Dev nD) : (W2 m ρ c (Proc.devRef .tc main_v1) : Vec Ideal S1000000 .i32) = srcRow (ei m c) :=
  (W2_of_ne m ρ c main_v1 (by decide)).trans (W1_v1 m ρ c)
theorem W2_v3 (c : Dev nD) : (W2 m ρ c (Proc.devRef .tc main_v3) : Vec Ideal S1000000 .i32) = dstRow (ei m c) :=
  (W2_of_ne m ρ c main_v3 (by decide)).trans (W1_v3 m ρ c)
theorem W2_v14 (c : Dev nD) : (W2 m ρ c (Proc.devRef .tc main_v14) : FVec Ideal S100000 .f32) = ns m c :=
  (W2_of_ne m ρ c main_v14 (by decide)).trans (W1_v14 m ρ c)
theorem W2_v18 (c : Dev nD) : (W2 m ρ c (Proc.devRef .tc main_v18) : FVec Ideal S100000 .f32) = nd m c :=
  (W2_of_ne m ρ c main_v18 (by decide)).trans (W1_v18 m ρ c)
theorem W2_arg4 (c : Dev nD) : (W2 m ρ c (Proc.devRef .tc main_arg4) : FVec Ideal S64x32 .f32) = w2 m c :=
  (W2_of_ne m ρ c main_arg4 (by decide)).trans (W1_arg4 m ρ c)
theorem W2_arg5 (c : Dev nD) : (W2 m ρ c (Proc.devRef .tc main_arg5) : FVec Ideal S32 .f32) = b2 m c :=
  (W2_of_ne m ρ c main_arg5 (by decide)).trans (W1_arg5 m ρ c)

/-! ## After the second stretch (the second region's entry) -/

theorem W3_v47 (c : Dev nD) :
    (W3 m ρ c (Proc.devRef .tc main_v47) : FVec Ideal S100000x64 .f32)
      = aggregate (hidden m c) (ns m c) (srcRow (ei m c)) (dstRow (ei m c)) := by
  rw [← W2_v34 m ρ c, ← W2_v14 m ρ c, ← W2_v1 m ρ c, ← W2_v3 m ρ c]
  show StableHlo.after hostOps1 (W2 m ρ c) (Proc.devRef .tc main_v47) = _
  after_results_simp <;> rfl

theorem W3_v48 (c : Dev nD) :
    (W3 m ρ c (Proc.devRef .tc main_v48) : FVec Ideal S100000x1 .f32) = shapeCast S100000x1 (nd m c) shapeCasts_S100000_S100000x1 := by
  rw [← W2_v18 m ρ c]
  show StableHlo.after hostOps1 (W2 m ρ c) (Proc.devRef .tc main_v48) = _
  after_results_simp <;> rfl

theorem W3_v49 (c : Dev nD) :
    (W3 m ρ c (Proc.devRef .tc main_v49) : FVec Ideal S1x32 .f32) = shapeCast S1x32 (b2 m c) shapeCasts_S32_S1x32 := by
  rw [← W2_arg5 m ρ c]
  show StableHlo.after hostOps1 (W2 m ρ c) (Proc.devRef .tc main_v49) = _
  after_results_simp <;> rfl

theorem W3_arg4 (c : Dev nD) : (W3 m ρ c (Proc.devRef .tc main_arg4) : FVec Ideal S64x32 .f32) = w2 m c := by
  rw [← W2_arg4 m ρ c]
  show StableHlo.after hostOps1 (W2 m ρ c) (Proc.devRef .tc main_arg4) = _
  after_results_simp <;> rfl

/-! ## After the second region: the program's result -/

/-- The second dense layer of the aggregated first layer. -/
abbrev result (c : Dev nD) : FVec Ideal S100000x32 .f32 :=
  Cert.Dense.layer (aggregate (hidden m c) (ns m c) (srcRow (ei m c)) (dstRow (ei m c)))
    (shapeCast S100000x1 (nd m c) shapeCasts_S100000_S100000x1) (w2 m c) (shapeCast S1x32 (b2 m c) shapeCasts_S32_S1x32)

/-- The program's result array at the last boundary is that term. -/
theorem result_eq (c : Dev nD) :
    (W4 m ρ c (Proc.devRef .tc main_v50) : FVec Ideal S100000x32 .f32) = result m c := by
  refine (W4_arr m ρ c 4).trans ?_
  refine (final1 (V3 m ρ) c).trans ?_
  show Cert.Dense.layer (W3 m ρ c (Proc.devRef .tc main_v47) : FVec Ideal S100000x64 .f32) (W3 m ρ c (Proc.devRef .tc main_v48) : FVec Ideal S100000x1 .f32)
    (W3 m ρ c (Proc.devRef .tc main_arg4) : FVec Ideal S64x32 .f32) (W3 m ρ c (Proc.devRef .tc main_v49) : FVec Ideal S1x32 .f32) = _
  rw [W3_v47, W3_v48, W3_arg4, W3_v49]

end Cert.KernelIdeal.Fold

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.Bridge.lean ====
/-
  THE REFERENCE'S RESULT IS THE KERNEL PROGRAM'S.

  The reference's run ends with its result at one composed term of its arguments: the same host operations as the
  kernel program's first stretch, then, twice, the dense layer written on the whole arrays (the aggregate's rows scaled
  by the destination norm spread as a column, the host's matrix product with the weights, the bias spread as a row,
  the rectifier), with the same aggregation between the two. Each whole-array layer is the layer function of
  Dense.lean (hostLayer_eq), the norm column and the bias rows are the same arrays whether reshaped (kernel program) or
  broadcast along the new unit axis (reference), and everything else is the same operations applied to the same
  arrays. So from memories that agree on the arguments the two results are one array.
-/
import proofs.«175876_j79285096284697_1_alg».proof.Defs
import proofs.«175876_j79285096284697_1_alg».proof.Proof.Fold
import proofs.«175876_j79285096284697_1_alg».proof.Proof.Dense
import proofs.«175876_j79285096284697_1_alg».proof.Proof.LibLayout
import proofs.«175876_j79285096284697_1_alg».proof.Proof.Gen.ReferenceIdeal.Run

set_option maxRecDepth 16384

noncomputable section

namespace Cert.Bridge

open Idealize.ShloMosaic Idealize.ShloMosaic.TcCoe Idealize.SL.Sem
open Cert.Proof.Layout

/-- The reference's result term, from a memory agreeing with the kernel program's on the six arguments, is the
    kernel program's result term. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v60 (F := Ideal) m' c = Cert.KernelIdeal.Fold.result m c := by
  unfold Cert.ReferenceIdeal.Value.res_main_v60
  rw [h0, h1, h2, h3, h4, h5]
  rw [Cert.Dense.hostLayer_eq Cert.ReferenceIdeal.dot_S100000x64_S64x32_S100000x32_1_0_0_1_n_n rfl,
    Cert.Dense.hostLayer_eq Cert.ReferenceIdeal.dot_S100000x64_S64x64_S100000x64_1_0_0_1_n_n rfl]
  unfold Cert.KernelIdeal.Fold.result Cert.KernelIdeal.Fold.hidden
  rw [reshape_col_eq_broadcastInDim (Cert.KernelIdeal.Fold.nd m c) _ Cert.ReferenceIdeal.Gen.bcast_S100000_S100000x1_0,
    reshape_row_eq_broadcastInDim (Cert.KernelIdeal.Fold.b2 m c) _ Cert.ReferenceIdeal.Gen.bcast_S32_S1x32_1,
    reshape_row_eq_broadcastInDim (Cert.KernelIdeal.Fold.b1 m c) _ Cert.ReferenceIdeal.Gen.bcast_S64_S1x64_1]
  rfl

end Cert.Bridge

end
-- ==== Proof.lean ====
/- A two-layer graph convolution over 100000 nodes and 1000000 edges, kernel program against reference, over the
   extended reals.

   Both programs compute, from node features x [100000, 64], an edge list [2, 1000000] and two weight/bias pairs,
       out = layer2 (aggregate (layer1 (aggregate x))),
   where aggregate scales each node's row by (max(out-degree, 1))^(-1/2), gathers the rows along the edges' sources and
   adds them up at the edges' destinations, and a layer scales row r by (max(in-degree of r, 1))^(-1/2), multiplies by
   the weights, adds the bias and rectifies. The degrees, the norms and the aggregation are the same host operations in
   both programs. The programs differ only in the layer: the reference writes it on the whole arrays with the host's
   matrix product; the kernel program runs it in a region over 20 blocks of 5000 rows, the product on the matrix unit from
   a zero accumulator, the norm handed over as a reshaped column and the bias as a reshaped row. Entry (r, q) of either
   is  max( sum over k of (a (r, k) * d r) * w (k, q) + b q , 0 ), the same sum of the same products, so the results are
   equal as extended reals with no appeal to finiteness of the inputs: the precondition is not used.

   The frames: the kernel programs' are the launch over their four segments; the reference's is its run with the result
   dropped. The idealization rewrote no operation, so its conjunct is trivial. For the equivalence, the kernel
   program's run is taken with its result array named at the last segment boundary's contents (KRun.lean), those
   contents are read back boundary by boundary to one term of the launch arrays (Region0.lean, Region1.lean, Fold.lean), and the
   reference's composed result term is shown to be the same term (Dense.lean, Bridge.lean). -/
import proofs.«175876_j79285096284697_1_alg».proof.Defs
import proofs.«175876_j79285096284697_1_alg».proof.Proof.Gen.Kernel
import proofs.«175876_j79285096284697_1_alg».proof.Proof.Gen.Kernel.Skeleton
import proofs.«175876_j79285096284697_1_alg».proof.Proof.Gen.Kernel.Launch
import proofs.«175876_j79285096284697_1_alg».proof.Proof.Gen.Kernel.Points
import proofs.«175876_j79285096284697_1_alg».proof.Proof.Gen.Kernel.Frame
import proofs.«175876_j79285096284697_1_alg».proof.Proof.Gen.KernelIdeal
import proofs.«175876_j79285096284697_1_alg».proof.Proof.Gen.KernelIdeal.Skeleton
import proofs.«175876_j79285096284697_1_alg».proof.Proof.Gen.KernelIdeal.Launch
import proofs.«175876_j79285096284697_1_alg».proof.Proof.Gen.KernelIdeal.Points
import proofs.«175876_j79285096284697_1_alg».proof.Proof.Gen.KernelIdeal.Frame
import proofs.«175876_j79285096284697_1_alg».proof.Proof.Gen.ReferenceIdeal
import proofs.«175876_j79285096284697_1_alg».proof.Proof.Gen.ReferenceIdeal.Run
import proofs.«175876_j79285096284697_1_alg».proof.Proof.Gen.Pre_finite_inputs
import proofs.«175876_j79285096284697_1_alg».proof.Proof.KRun
import proofs.«175876_j79285096284697_1_alg».proof.Proof.Fold
import proofs.«175876_j79285096284697_1_alg».proof.Proof.Bridge
import Idealize.ShloMosaic.Adequacy
import Idealize.ShloMosaic.Init

noncomputable section

namespace Cert.Proof

open Idealize.ShloMosaic Idealize.SL.Sem

/-- The word-level kernel program runs and keeps its arguments: the launch over its segments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result array: the kernel
    program's run ends with it at the last boundary's contents, the reference's at its composed term, and the two are
    the same term of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v50), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact (Cert.Bridge.ref_eq m m' c h0 h1 h2 h3 h4 h5).trans (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
